-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32x128 : Shape := ⟨3, ![50000, 32, 128]⟩
abbrev S_ : Shape := ⟨0, ![]⟩

class Facts : Prop where
  bcast_S_S50000x32x128 : S_.BroadcastsInDim S50000x32x128 (![] : Fin 0 → Fin S50000x32x128.rank)
  reducesTo_S50000x32x128_S_d0_1_2 : S50000x32x128.ReducesTo [0, 1, 2] S_
  h_S_ : 0 < S_.numel

variable [Facts]

def fn {F : FTy → Type} [FloatOps F] (main_arg0 : FVec F S50000x32x128 .f32) : IVec S_ 1 :=
  let main_v0 : FVec F S50000x32x128 .f32 := Host.absf main_arg0
  let main_cst : FVec F S_ .f32 := constant S_ .f32 0x7F800000#32
  let main_v1 : FVec F S50000x32x128 .f32 := broadcastInDim S50000x32x128 ![] bcast_S_S50000x32x128 main_cst
  let main_v2 : IVec S50000x32x128 1 := cmpf .olt main_v0 main_v1
  let main_c : IVec S_ 1 := constantI S_ 1 1#1
  let main_v3 : IVec S_ 1 := (fun x v => Host.reduce IntOp.andi x v reducesTo_S50000x32x128_S_d0_1_2 h_S_) main_v2 main_c
  main_v3
-- ==== Kernel.lean ====
abbrev S50000x32x128 : Shape := ⟨3, ![50000, 32, 128]⟩
abbrev S50000x128 : Shape := ⟨2, ![50000, 128]⟩
abbrev S1000x32x128 : Shape := ⟨3, ![1000, 32, 128]⟩
abbrev S1000x128 : Shape := ⟨2, ![1000, 128]⟩

abbrev nBuf : Space → Nat
  | .hbm => 2
  | .vmem => 4
  | .smem => 0
  | _ => 0

abbrev bufTy : (tb : Table) → Fin (tcTables nBuf tb) → BufTy
  | .hbm, ⟨0, _⟩ => ⟨S50000x32x128, .f32⟩
  | .hbm, ⟨1, _⟩ => ⟨S50000x128, .f32⟩
  | .local _ .vmem, ⟨0, _⟩ => ⟨S1000x32x128, .f32⟩
  | .local _ .vmem, ⟨1, _⟩ => ⟨S1000x32x128, .f32⟩
  | .local _ .vmem, ⟨2, _⟩ => ⟨S1000x128, .f32⟩
  | .local _ .vmem, ⟨3, _⟩ => ⟨S1000x128, .f32⟩
  | _, _ => ⟨S50000x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1000x32x128_S1000x32x128_0_0_0 : ∀ a, (![0, 0, 0] : Fin 3 → Nat) a + S1000x32x128.size a ≤ S1000x32x128.size a
  h_S1000x32x128 : 0 < S1000x32x128.numel
  reduces_S1000x32x128_S1000x128 : S1000x32x128.Reduces [1] S1000x128
  inb_S1000x128_S1000x128_0_0 : ∀ a, (![0, 0] : Fin 2 → Nat) a + S1000x128.size a ≤ S1000x128.size a
  h_S1000x128 : 0 < S1000x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x32x128.size a ≤ S50000x32x128.size a
  hwx0_0 : ∀ i : grid0.Coords, EltTy.bits .f32 = 32 ∨ (Rect.block (s := S50000x32x128) S1000x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)

variable [Facts₀]

abbrev win0_0 : Pipeline.Window sig grid0 :=
  Pipeline.Window.ofSpec (Memref.whole main_arg0) S1000x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S50000x32x128 : Shape := ⟨3, ![50000, 32, 128]⟩
abbrev S_ : Shape := ⟨0, ![]⟩
abbrev S50000x128 : Shape := ⟨2, ![50000, 128]⟩

abbrev nBuf : Space → Nat
  | .hbm => 6
  | .vmem => 0
  | .smem => 0
  | _ => 0

abbrev bufTy : (tb : Table) → Fin (tcTables nBuf tb) → BufTy
  | .hbm, ⟨0, _⟩ => ⟨S50000x32x128, .f32⟩
  | .hbm, ⟨1, _⟩ => ⟨S_, .f32⟩
  | .hbm, ⟨2, _⟩ => ⟨S50000x128, .f32⟩
  | .hbm, ⟨3, _⟩ => ⟨S_, .f32⟩
  | .hbm, ⟨4, _⟩ => ⟨S50000x128, .f32⟩
  | .hbm, ⟨5, _⟩ => ⟨S50000x128, .f32⟩
  | _, _ => ⟨S50000x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  reducesTo_S50000x32x128_S50000x128_d1 : S50000x32x128.ReducesTo [1] S50000x128
  h_S_ : 0 < S_.numel
  bcast_S_S50000x128 : S_.BroadcastsInDim S50000x128 (![] : Fin 0 → Fin S50000x128.rank)

variable [Facts₀]

class Facts : Prop extends Facts₀ where

variable [Facts]
-- ==== Proof.Mean.lean ====
/-
  The specification: the mean of a node's messages.

  The mailbox holds, for each of 50000 nodes, 32 messages of 128 features. The aggregated value of node `n` at feature
  `f` is the sum of the 32 entries `x[n, 0, f], …, x[n, 31, f]` divided by 32. Both programs compute exactly this on the
  extended reals: neither rearranges the sum in a way that matters (addition of extended reals is commutative and
  associative) and both divide by the same constant, so no finiteness of the entries is needed.
-/
import Idealize.ShloMosaic.Lib.ValueIdx
import Idealize.ShloMosaic.PureOps.Ideal

noncomputable section

namespace Cert.Mean

open Idealize.ShloMosaic Idealize.ShloMosaic.ValueIdx

/-- The divisor, as both programs spell it: the single-precision word of `32.0`. -/
abbrev degree : EReal := Ideal.ofBits .f32 0x42000000#32

/-- The mean over the neighbour axis: entry `(n, f)` is the sum over the 32 messages `k` of `x[n, k, f]`, divided by
    the degree. -/
def neighbourMean (x : (⟨3, ![50000, 32, 128]⟩ : Shape).Idx → EReal) : (⟨2, ![50000, 128]⟩ : Shape).Idx → EReal :=
  fun i => Ideal.div (∑ k : Fin 32, x (ix3 (i 0) k (i 1))) degree

end Cert.Mean

end
-- ==== Proof.RefMean.lean ====
/-
  The reference computes the neighbour mean.

  The reference sums the mailbox over its neighbour axis starting from zero, and divides by a broadcast `32.0`. Read at
  an entry `(n, f)`: `0 + ∑ k, x[n, k, f]` divided by the degree; the leading zero is the additive identity.
-/
import proofs.«120530_j1846835937457_1_alg».proof.Proof.Gen.ReferenceIdeal.Read
import proofs.«120530_j1846835937457_1_alg».proof.Proof.Mean

noncomputable section

namespace Cert.ReferenceIdeal.RefValue

open Cert.ReferenceIdeal Cert.ReferenceIdeal.Gen Cert.ReferenceIdeal.Read
open Idealize.ShloMosaic Idealize.ShloMosaic.ValueIdx

/-- The reference's result, as a function of the mailbox, is the neighbour mean: at `(n, f)` its sum reads the mailbox at
    `(n, k, f)` for each message `k`, its initial value is zero, and its divisor is the degree at every entry. -/
theorem reference_is_mean (x : (⟨S50000x32x128, .f32⟩ : BufTy).Contents (Elt Ideal)) :
    val_main_v2 (F := Ideal) x = Cert.Mean.neighbourMean x := by
  funext i
  have hidx : ∀ k : Fin 32, idx_main_v0 i k = ix3 (i 0) k (i 1) := fun k =>
    funext fun a => Fin.ext (by match a with | ⟨0, _⟩ => rfl | ⟨1, _⟩ => rfl | ⟨2, _⟩ => rfl)
  rw [val_main_v2_apply, val_main_v0_apply, val_main_v1_apply, val_main_cst_0_apply, val_main_cst_apply]
  simp only [hidx, Ideal.hostDivf_def, Ideal.ofBits_def, Ideal.ofBits_zero_f32, zero_add]
  rfl

end Cert.ReferenceIdeal.RefValue

end
-- ==== Proof.LibMiddleSum.lean ====
/-
  A lane sum over the MIDDLE axis of a rank-3 block, read as a finite sum.

  A reduction such as `sum(x, axis=1)` of an `[a, d, b]` block leaves an `[a, b]` block whose entry `(p, q)` adds the
  `d` entries `x[p, 0, q], …, x[p, d-1, q]`. On the extended reals the reduction from the neutral accumulator is exactly
  that finite sum, with the summed coordinate placed between the two kept ones. Generic in the extents and in the float
  format.
-/
import Idealize.ShloMosaic.Lib.ValueIdx
import Idealize.ShloMosaic.PureOps.Ideal.Laws

namespace Cert.Lib.MiddleSum

open Idealize.ShloMosaic Idealize.ShloMosaic.ValueIdx

/-- The sum over axis 1 of an `[a, d, b]` block (a float `multi_reduction <add>` from the neutral accumulator), read on
    the extended reals at `j = (p, q)`, is the finite sum over `k < d` of the block's entries `(p, k, q)`. -/
theorem middleSum_apply {φ : FTy} {a d b : ℕ} (src : FVec Ideal ⟨3, ![a, d, b]⟩ φ) (acc : BitVec φ.bits)
    (h : (⟨3, ![a, d, b]⟩ : Shape).Reduces [1] ⟨2, ![a, b]⟩) (hφ : FKind.Formats φ) (hacc : acc = FKind.add.neutral φ hφ)
    (j : (⟨2, ![a, b]⟩ : Shape).Idx) :
    multiReduction .add [1] ⟨2, ![a, b]⟩ src acc h hφ hacc j = ∑ k : Fin d, src (ix3 (j 0) k (j 1)) :=
  (Ideal.multiReduction_add_single src acc h hφ hacc j).trans
    (Finset.sum_congr rfl fun k _ => congrArg src (funext fun c => Fin.ext (by
      match c with
      | ⟨0, _⟩ => rfl
      | ⟨1, _⟩ => rfl
      | ⟨2, _⟩ => rfl)))

end Cert.Lib.MiddleSum
-- ==== Proof.KernelMean.lean ====
/-
  The kernel computes the neighbour mean.

  The grid has 50 points; point `t` fetches the rows `1000·t … 1000·t + 999` of the mailbox (all 32 messages, all 128
  features), and the body leaves in the output block, at `(p, q)`, the sum over the 32 messages `k` of the fetched
  block's entries `(p, k, q)` divided by `32.0`. Entry `(p, k, q)` of the fetched block is the mailbox's entry
  `(1000·t + p, k, q)`, and the output block of point `t` is written back to rows `1000·t … 1000·t + 999` of the result.
  So each point writes back its rows of the neighbour mean of the whole mailbox, and the 50 row blocks cover the result.
-/
import proofs.«120530_j1846835937457_1_alg».proof.Proof.Gen.KernelIdeal.Value
import proofs.«120530_j1846835937457_1_alg».proof.Proof.Mean
import proofs.«120530_j1846835937457_1_alg».proof.Proof.LibMiddleSum

noncomputable section

open Idealize.ShloMosaic Idealize.ShloMosaic.TcCoe Idealize.SL.Sem Idealize.ShloMosaic.ValueIdx
open Idealize.ShloMosaic.Pipeline (Dat)

namespace Cert.KernelIdeal.MeanValue

open Cert.KernelIdeal Cert.KernelIdeal.Gen Cert.KernelIdeal.Value

variable (m : (ℓ : Loc nD τ sig) → Buf (Elt Ideal) ℓ) (ρ : Dev nD → PrngReg)

theorem zero3 : (![0, 0, 0] : Fin 3 → Nat) = fun _ => 0 := funext fun a => by fin_cases a <;> rfl

/-- What the body leaves in the output block from a fetched block `P`: at `(p, q)` the sum of `P`'s 32 entries
    `(p, k, q)` divided by the degree. -/
theorem block_mean (P : Vec Ideal S1000x32x128 .f32) (y : S1000x128.Idx) :
    out0_1 P y = Ideal.div (∑ k : Fin 32, P (ix3 (y 0) k (y 1))) Cert.Mean.degree := by
  unfold out0_1
  rw [View.ld_unit_zero (S := S1000x32x128) zero3, canon1_eq]
  show Ideal.div (multiReduction (F := Ideal) .add [1] S1000x128 P 0x00000000#32 reduces_S1000x32x128_S1000x128 (.inl rfl) rfl (ix1_0 y)) _ = _
  exact congrArg (fun s => Ideal.div s Cert.Mean.degree)
    (Cert.Lib.MiddleSum.middleSum_apply P 0x00000000#32 reduces_S1000x32x128_S1000x128 (.inl rfl) rfl (ix1_0 y))

/-- Where each window's block sits at point `t`: the input's and the output's row block index is `t`, every other block
    index is zero (decided over the 50 points). -/
theorem index_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- Entry `(p, k, q)` of the block point `t` fetches is the mailbox's entry `(1000·t + p, k, q)`. -/
theorem iblk_apply (c : Dev nD) (t : Fin cfg0.N) (p : Fin 1000) (k : Fin 32) (q : Fin 128) (r : Fin 50000) (q' : Fin 128)
    (hr : r.val = 1000 * t.val + p.val) (hq : q'.val = q.val) :
    (iblk m c 0 t : Vec Ideal S1000x32x128 .f32) (ix3 p k q)
      = (m ((c : Thread nD τ).loc main_arg0) : S50000x32x128.Idx → EReal) (ix3 r k q') := by
  obtain ⟨e0, e1, e2, -, -⟩ := index_facts t
  unfold iblk
  rw [View.read_apply]
  show V m c main_arg0 _ = m (c.tc.loc main_arg0) _
  unfold V
  congr 1
  funext a
  apply Fin.ext
  match a with
  | ⟨0, _⟩ => show win0_0.index t 0 * 1000 + 1 * p.val = r.val; rw [e0, hr]; omega
  | ⟨1, _⟩ => show win0_0.index t 1 * 32 + 1 * k.val = k.val; rw [e1]; omega
  | ⟨2, _⟩ => show win0_0.index t 2 * 128 + 1 * q.val = q'.val; rw [e2, hq]; omega

/-- What point `t` writes back is its row block of the neighbour mean of the mailbox. -/
theorem flushed_eq (c : Dev nD) (t : Fin cfg0.N) :
    (dats m 0 c).flushed 1 t
      = ((cfg0.win 1).blk t).view.read (Elt Ideal) (Cert.Mean.neighbourMean (m ((c : Thread nD τ).loc main_arg0))) := by
  obtain ⟨-, -, -, e3, e4⟩ := index_facts t
  rw [flushed1]
  funext j
  show out0_1 (iblk m c 0 t) j = Cert.Mean.neighbourMean (m ((c : Thread nD τ).loc main_arg0)) (((cfg0.win 1).blk t).view.emb j)
  refine (block_mean (iblk m c 0 t) j).trans ?_
  unfold Cert.Mean.neighbourMean
  refine congrArg (fun s => Ideal.div s Cert.Mean.degree) (Finset.sum_congr rfl fun k _ => ?_)
  refine iblk_apply m c t (j 0) k (j 1) _ _ ?_ ?_
  · show win0_1.index t 0 * 1000 + 1 * (j 0).val = 1000 * t.val + (j 0).val; rw [e3]; omega
  · show win0_1.index t 1 * 128 + 1 * (j 1).val = (j 1).val; rw [e4]; omega

/-- Every entry of the result lies in some point's row block: row `r` in the block of point `r / 1000`. -/
theorem cover (i : S50000x128.Idx) :
    ∃ t : Fin cfg0.N, (cfg0.win 1).flush t = true ∧ i ∈ ((cfg0.win 1).blk t).view.set := by
  have h0 : (i 0).val < 50000 := (i 0).isLt
  have h1 : (i 1).val < 128 := (i 1).isLt
  have hN : cfg0.N = 50 := N_0
  let t : Fin cfg0.N := ⟨(i 0).val / 1000, by rw [hN]; omega⟩
  obtain ⟨-, -, -, e3, e4⟩ := index_facts t
  have ht : t.val = (i 0).val / 1000 := rfl
  refine ⟨t, flush0_1 t, ?_⟩
  show i ∈ ((View.whole main_v0).slice (win0_1.rect t)).set
  rw [View.set_slice_whole, Rect.mem_set_unit]
  intro a
  match a with
  | ⟨0, _⟩ => show win0_1.index t 0 * 1000 ≤ (i 0).val ∧ (i 0).val < win0_1.index t 0 * 1000 + 1000; rw [e3, ht]; omega
  | ⟨1, _⟩ => show win0_1.index t 1 * 128 ≤ (i 1).val ∧ (i 1).val < win0_1.index t 1 * 128 + 128; rw [e4]; omega

/-- So the result array ends holding the neighbour mean of the mailbox. -/
theorem final (c : Dev nD) :
    (dats m 0 c).arrAt 1 cfg0.N = Cert.Mean.neighbourMean (m ((c : Thread nD τ).loc main_arg0)) :=
  (dats m 0 c).arrAt_eq_of_cover 1 (Cert.Mean.neighbourMean (m ((c : Thread nD τ).loc main_arg0)))
    (fun t _ => flushed_eq m c t) cover

/-- The run, read: the result array at the neighbour mean of the mailbox, the mailbox unchanged. -/
theorem run : θ_run defs (onTc (τ := τ) (main (F := Ideal))) ⟨m, fun _ => 0, ρ⟩ fun r => ∀ c : Dev nD,
      r.2.mem ((c : Thread nD τ).loc main_v0) = Cert.Mean.neighbourMean (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩)
    (Cert.KernelIdeal.Value.run_blocks m ρ)

end Cert.KernelIdeal.MeanValue

end
-- ==== Proof.lean ====
/-
  The mean over the neighbour axis, tile by tile against the whole array.

  The kernel walks the 50000 nodes of the mailbox in 50 tiles of 1000 rows; on each tile it adds the 32 messages of
  every node feature by feature and divides by 32.0, and writes the tile's 1000 rows of the result. The reference adds
  the 32 messages over the whole array at once, from zero, and divides by the same 32.0. Read on the extended reals, both
  leave at entry (n, f) the sum over k < 32 of x[n, k, f] divided by the degree (`Cert.Mean.neighbourMean`): the
  reference because zero is the additive identity (`reference_is_mean`), the kernel because entry (p, k, q) of the tile
  fetched at point t is x[1000·t + p, k, q] and the 50 row blocks written back cover the result (`MeanValue.run`). The sums
  are the same sums term by term, so nothing is asked of the entries: the precondition is not opened.

  The three programs terminate without a fault and leave the mailbox unchanged: for the two kernel programs that is the
  frame of the pipelined region, for the reference its run with the result dropped. No operation of the kernel was
  rewritten when it was read on the extended reals, so there is nothing to preserve.
-/
import proofs.«120530_j1846835937457_1_alg».proof.Defs
import proofs.«120530_j1846835937457_1_alg».proof.Proof.Gen.Kernel
import proofs.«120530_j1846835937457_1_alg».proof.Proof.Gen.Kernel.Skeleton
import proofs.«120530_j1846835937457_1_alg».proof.Proof.Gen.Kernel.Launch
import proofs.«120530_j1846835937457_1_alg».proof.Proof.Gen.Kernel.Points
import proofs.«120530_j1846835937457_1_alg».proof.Proof.Gen.Kernel.Frame
import proofs.«120530_j1846835937457_1_alg».proof.Proof.Gen.KernelIdeal
import proofs.«120530_j1846835937457_1_alg».proof.Proof.Gen.KernelIdeal.Skeleton
import proofs.«120530_j1846835937457_1_alg».proof.Proof.Gen.KernelIdeal.Launch
import proofs.«120530_j1846835937457_1_alg».proof.Proof.Gen.KernelIdeal.Points
import proofs.«120530_j1846835937457_1_alg».proof.Proof.Gen.KernelIdeal.Frame
import proofs.«120530_j1846835937457_1_alg».proof.Proof.Gen.ReferenceIdeal
import proofs.«120530_j1846835937457_1_alg».proof.Proof.Gen.Pre_finite_inputs
import proofs.«120530_j1846835937457_1_alg».proof.Proof.Gen.KernelIdeal.Value
import proofs.«120530_j1846835937457_1_alg».proof.Proof.Gen.ReferenceIdeal.Run
import proofs.«120530_j1846835937457_1_alg».proof.Proof.Gen.ReferenceIdeal.Read
import Idealize.ShloMosaic.Adequacy
import Idealize.ShloMosaic.Init
import proofs.«120530_j1846835937457_1_alg».proof.Proof.RefMean
import proofs.«120530_j1846835937457_1_alg».proof.Proof.KernelMean

noncomputable section

namespace Cert.Proof

open Idealize.ShloMosaic Idealize.SL.Sem

/-- The word-level kernel runs and leaves the mailbox unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves the mailbox unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From mailboxes that agree, the kernel's result array and the reference's both end at the neighbour mean of the
    mailbox. -/
theorem algebraic : Cert.algebraic_KernelIdeal_ReferenceIdeal := by
  intro m ρ m' ρ' _ hagree
  refine ⟨fun c => Cert.Mean.neighbourMean (m ((c.tc : Thread Cert.KernelIdeal.nD Cert.KernelIdeal.τ).loc Cert.KernelIdeal.main_arg0)),
    Cert.KernelIdeal.MeanValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.reference_is_mean, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
